-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x4096x2048 .f32) (main_arg1 : FVec F S2048x2048 .f32) (main_arg2 : FVec F S2048 .f32) (main_arg3 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S256x2048 : Shape := ⟨2, ![256, 2048]⟩

abbrev nBuf : Space → Nat
  | .hbm => 12
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .bf16⟩
  | .hbm, ⟨9, _⟩ => ⟨S1x2048, .f32⟩
  | .hbm, ⟨10, _⟩ => ⟨S16384x2048, .f32⟩
  | .hbm, ⟨11, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x2048_S16384x2048 : S4x4096x2048.ShapeCasts S16384x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  broadcasts_S1x2048_S256x2048 : S1x2048.Broadcasts S256x2048
  shapeCasts_S16384x2048_S4x4096x2048 : S16384x2048.ShapeCasts S4x4096x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .bf16 = 32 ∨ (Rect.block (s := S1x2048) S1x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S1x1x2048 : Shape := ⟨3, ![1, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x1, .f32⟩
  | .hbm, ⟨5, _⟩ => ⟨S2048x2048, .f32⟩
  | .hbm, ⟨6, _⟩ => ⟨S2048x2048, .f32⟩
  | .hbm, ⟨7, _⟩ => ⟨S4x4096x2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Payload.lean ====
/-
  The kernel body's arithmetic at an entry.

  At a grid point the body holds a `[256, 2048]` block of input rows `x0`, the whole transposed weight `x1 : [2048, 2048]`,
  the scale row `x2 : [1, 2048]` and the bias row `x3 : [1, 2048]`. It scales each weight column `q` by `x2[0, q]`,
  multiplies the rows by the scaled weight into a zero accumulator, and adds the bias row. Changes of float format are
  the identity on the extended reals, so entry `(p, q)` of what it stores is

      ∑ k, x0[p, k] · (x1[k, q] · x2[0, q])  +  x3[0, q].
-/
import proofs.«113941_j55130200212236_1_alg».proof.Proof.Gen.KernelIdeal.Skeleton
import proofs.«113941_j55130200212236_1_alg».proof.Proof.LibMatmulAt
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A `[1, 2048]` row broadcast down 2048 rows reads the row's entry of the same column. -/
theorem bcast_row_2048 {φ : FTy} (v : FVec Ideal S1x2048 φ) (k q : Fin 2048) :
    broadcastTo S2048x2048 v broadcasts_S1x2048_S2048x2048 (ix2 k q) = v (ix2 0 q) :=
  broadcastTo_apply v broadcasts_S1x2048_S2048x2048 (ix2 k q) (ix2 0 q) (fun a => match a with
    | ⟨0, _⟩ => by show (0 : Nat) = if (1 : Nat) = 1 then 0 else k.val; rw [if_pos rfl]
    | ⟨1, _⟩ => by show q.val = if (2048 : Nat) = 1 then 0 else q.val; rw [if_neg (by decide)])

/-- A `[1, 2048]` row broadcast down 256 rows reads the row's entry of the same column. -/
theorem bcast_row_256 {φ : FTy} (v : FVec Ideal S1x2048 φ) (p : Fin 256) (q : Fin 2048) :
    broadcastTo S256x2048 v broadcasts_S1x2048_S256x2048 (ix2 p q) = v (ix2 0 q) :=
  broadcastTo_apply v broadcasts_S1x2048_S256x2048 (ix2 p q) (ix2 0 q) (fun a => match a with
    | ⟨0, _⟩ => by show (0 : Nat) = if (1 : Nat) = 1 then 0 else p.val; rw [if_pos rfl]
    | ⟨1, _⟩ => by show q.val = if (2048 : Nat) = 1 then 0 else q.val; rw [if_neg (by decide)])

/-- THE BODY AT AN ENTRY: the stored value at `(p, q)` is the row–column product with the scaled weight, plus the bias. -/
theorem payload_at (x0 : Vec Ideal S256x2048 .f32) (x1 : Vec Ideal S2048x2048 .bf16) (x2 : Vec Ideal S1x2048 .bf16)
    (x3 : Vec Ideal S1x2048 .f32) (p : Fin 256) (q : Fin 2048) :
    k0_pay1 (F := Ideal) x0 x1 x2 x3 (ix2 p q)
      = (∑ k : Fin 2048, x0 (ix2 p k) * (x1 (ix2 k q) * x2 (ix2 0 q))) + x3 (ix2 0 q) := by
  unfold k0_pay1
  rw [addf_apply]
  refine congrArg₂ (· + ·) ?_ ?_
  · refine (Cert.LibMatmulAt.matmul_zero_at dot_S256x2048_S2048x2048_S256x2048_1_0_0_1_n_n rfl rfl rfl rfl rfl rfl
      none _ _ p q).trans ?_
    refine Finset.sum_congr rfl fun k _ => ?_
    rw [truncf_apply, shapeCast_self, mulf_apply, shapeCast_self, bcast_row_2048, shapeCast_self]
  · rw [shapeCast_self, bcast_row_256]

end Cert.KernelIdeal.Body

end
-- ==== Proof.Spec.lean ====
/-
  The specification: a dense layer whose weight rows are scaled per output feature.

  For an input `x : [4, 4096, 2048]`, a weight `w : [2048 (out), 2048 (in)]`, a per-output scale `s : [2048]` and a
  bias `b : [2048]`, the result at batch `β`, position `σ`, output feature `o` is

      ∑ i, x[β, σ, i] · (w[o, i] · s[o])  +  b[o]

  on the extended reals. `rows` is the same function of the operands as a pallas_call finds them: the input flattened to
  `[16384, 2048]` rows, the weight transposed to `[in, out]`, scale and bias as `[1, 2048]` rows.
-/
import Idealize.ShloMosaic.PureOps.Ideal.Laws
import Idealize.ShloMosaic.Lib.ValueIdx

noncomputable section

open scoped BigOperators

namespace Cert.ScaledLinear

open Idealize.ShloMosaic Idealize.ShloMosaic.ValueIdx

/-- The layer over its arguments as given: entry `(β, σ, o)` contracts the input's last axis against row `o` of the
    scaled weight and adds the bias of feature `o`. -/
def spec (x : (⟨3, ![4, 4096, 2048]⟩ : Shape).Idx → EReal) (w : (⟨2, ![2048, 2048]⟩ : Shape).Idx → EReal)
    (s b : (⟨1, ![2048]⟩ : Shape).Idx → EReal) : (⟨3, ![4, 4096, 2048]⟩ : Shape).Idx → EReal :=
  fun i => (∑ k : Fin 2048, x (ix3 (i 0) (i 1) k) * (w (ix2 (i 2) k) * s (ix1 (i 2)))) + b (ix1 (i 2))

/-- The layer over flattened rows: entry `(r, n)` contracts row `r` of `X` against column `n` of the transposed weight
    `W`, each weight entry scaled by the scale row's entry `n`, and adds the bias row's entry `n`. -/
def rows (X : (⟨2, ![16384, 2048]⟩ : Shape).Idx → EReal) (W : (⟨2, ![2048, 2048]⟩ : Shape).Idx → EReal)
    (S B : (⟨2, ![1, 2048]⟩ : Shape).Idx → EReal) : (⟨2, ![16384, 2048]⟩ : Shape).Idx → EReal :=
  fun i => (∑ k : Fin 2048, X (ix2 (i 0) k) * (W (ix2 k (i 1)) * S (ix2 0 (i 1)))) + B (ix2 0 (i 1))

end Cert.ScaledLinear

end
-- ==== Proof.Blocks.lean ====
/-
  From the grid's blocks to the whole output array.

  The grid has 64 points. Point `t` holds rows `256·t … 256·t + 255` of the flattened input (all 2048 columns), and the
  whole transposed weight, scale row and bias row at every point; it writes rows `256·t … 256·t + 255` of the output.
  So what point `t` writes back is the block of `rows` (the layer over flattened rows) at those rows: entry `(p, q)` of the
  block is `rows` at `(256·t + p, q)`, because the input block's row `p` is the array's row `256·t + p` and the other three
  operands are read whole. Row `r` of the output lies in the block of point `r / 256`, so the 64 blocks cover the array and
  the output array after the run is `rows` of the four operand arrays as the pallas_call finds them.
-/
import proofs.«113941_j55130200212236_1_alg».proof.Proof.Gen.KernelIdeal.Frame
import proofs.«113941_j55130200212236_1_alg».proof.Proof.Payload
import proofs.«113941_j55130200212236_1_alg».proof.Proof.Spec
import Idealize.ShloMosaic.Lib.Pipeline.Value
import Idealize.ShloMosaic.Lib.ValueIdx

noncomputable section

open scoped BigOperators

namespace Cert.KernelIdeal.Blocks

open Cert.KernelIdeal Cert.KernelIdeal.Gen Cert.KernelIdeal.Body Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- A stored block against `rows`: if the block's row `p` is row `r` of `X` and the other three operands are the arrays
    themselves, the stored entry `(p, q)` is `rows` at `(r, q)`. -/
theorem stored_is_rows (x0 : Vec Ideal S256x2048 .f32) (x1 : Vec Ideal S2048x2048 .bf16) (x2 : Vec Ideal S1x2048 .bf16)
    (x3 : Vec Ideal S1x2048 .f32) (X : S16384x2048.Idx → EReal) (W : S2048x2048.Idx → EReal) (S B : S1x2048.Idx → EReal)
    (p : Fin 256) (q : Fin 2048) (r : Fin 16384)
    (h0 : ∀ k : Fin 2048, x0 (ix2 p k) = X (ix2 r k))
    (h1 : ∀ k : Fin 2048, x1 (ix2 k q) = W (ix2 k q))
    (h2 : x2 (ix2 0 q) = S (ix2 0 q))
    (h3 : x3 (ix2 0 q) = B (ix2 0 q)) :
    k0_pay1 (F := Ideal) x0 x1 x2 x3 (ix2 p q) = Cert.ScaledLinear.rows X W S B (ix2 r q) := by
  rw [payload_at]
  show _ = (∑ k : Fin 2048, X (ix2 r k) * (W (ix2 k q) * S (ix2 0 q))) + B (ix2 0 q)
  rw [h3, h2]
  refine congrArg₂ (· + ·) (Finset.sum_congr rfl fun k _ => ?_) rfl
  rw [h0 k, h1 k]

/-- The printed index maps, decided over the 64 points: the input rows move with the output rows, block `t` at point
    `t`; every other block index is zero. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 63 ∧ win0_4.index t (1 : Fin 2) = 0 :=
  (by decide +kernel : ∀ t : Fin grid0.N, _)

/-- Every row block is some point's. -/
theorem index_onto : ∀ q : Fin 64, ∃ t : Fin cfg0.N, win0_4.index t = ![q.val, 0] :=
  (by decide +kernel : ∀ q : Fin 64, ∃ t : Fin grid0.N, win0_4.index t = ![q.val, 0])

/-- WHAT POINT `t` WRITES BACK is block `t` of `rows` of the four operand arrays as the pallas_call finds them. -/
theorem flushed_eq (c : Dev nD) (t : Fin cfg0.N) :
    (dats m 0 c).flushed 4 t = ((cfg0.win 4).blk t).view.read (Elt Ideal)
      (Cert.ScaledLinear.rows (V m c main_v0) (V m c main_v2) (V m c main_v4) (V m c main_v5)) := by
  show (cfg0.win 4).cut (grid0.coords t) ((dats m 0 c).after 4 t) = _
  rw [after0_4]
  unfold out0_4
  rw [View.canon_unit_zero offsets_zero]
  simp only [View.ld_unit_zero (S := S256x2048) offsets_zero, View.ld_unit_zero (S := S2048x2048) offsets_zero,
    View.ld_unit_zero (S := S1x2048) offsets_zero]
  obtain ⟨e00, e01, e10, e11, e20, e21, e30, e31, e40, e41⟩ := index_facts t
  funext j
  show k0_pay1 (F := Ideal) (iblk m c 0 t) (iblk m c 1 t) (iblk m c 2 t) (iblk m c 3 t) j
    = Cert.ScaledLinear.rows (V m c main_v0) (V m c main_v2) (V m c main_v4) (V m c main_v5) (((cfg0.win 4).blk t).view.emb j)
  obtain ⟨p, q, rfl⟩ : ∃ (p : Fin 256) (q : Fin 2048), j = ix2 p q := ⟨j 0, j 1, eq_ix2 j⟩
  have hp : p.val < 256 := p.isLt
  have hr : win0_4.index t (0 : Fin 2) * 256 + 1 * p.val < 16384 := by omega
  -- the output block's entry `(p, q)` is the array's entry `(256·t + p, q)`
  have hi : ((cfg0.win 4).blk t).view.emb (ix2 p q) = ix2 (⟨win0_4.index t (0 : Fin 2) * 256 + 1 * p.val, hr⟩ : Fin 16384) q := by
    funext a; apply Fin.ext
    match a with
    | ⟨0, _⟩ => rfl
    | ⟨1, _⟩ => show win0_4.index t (1 : Fin 2) * 2048 + 1 * q.val = q.val; omega
  rw [hi]
  refine stored_is_rows (iblk m c 0 t) (iblk m c 1 t) (iblk m c 2 t) (iblk m c 3 t) (V m c main_v0) (V m c main_v2) (V m c main_v4)
    (V m c main_v5) p q ⟨win0_4.index t (0 : Fin 2) * 256 + 1 * p.val, hr⟩ ?_ ?_ ?_ ?_
  · -- the input block's row `p` is the flattened input's row `256·t + p`
    intro k
    show V m c main_v0 (((cfg0.win 0).blk t).view.emb (ix2 p k)) = _
    refine congrArg (V m c main_v0) (funext fun a => Fin.ext ?_)
    match a with
    | ⟨0, _⟩ => show win0_0.index t (0 : Fin 2) * 256 + 1 * p.val = win0_4.index t (0 : Fin 2) * 256 + 1 * p.val; rw [e00]
    | ⟨1, _⟩ => show win0_0.index t (1 : Fin 2) * 2048 + 1 * k.val = k.val; omega
  · -- the weight is read whole
    intro k
    show V m c main_v2 (((cfg0.win 1).blk t).view.emb (ix2 k q)) = _
    refine congrArg (V m c main_v2) (funext fun a => Fin.ext ?_)
    match a with
    | ⟨0, _⟩ => show win0_1.index t (0 : Fin 2) * 2048 + 1 * k.val = k.val; omega
    | ⟨1, _⟩ => show win0_1.index t (1 : Fin 2) * 2048 + 1 * q.val = q.val; omega
  · -- the scale row is read whole
    show V m c main_v4 (((cfg0.win 2).blk t).view.emb (ix2 0 q)) = _
    refine congrArg (V m c main_v4) (funext fun a => Fin.ext ?_)
    match a with
    | ⟨0, _⟩ => show win0_2.index t (0 : Fin 2) * 1 + 1 * 0 = 0; omega
    | ⟨1, _⟩ => show win0_2.index t (1 : Fin 2) * 2048 + 1 * q.val = q.val; omega
  · -- the bias row is read whole
    show V m c main_v5 (((cfg0.win 3).blk t).view.emb (ix2 0 q)) = _
    refine congrArg (V m c main_v5) (funext fun a => Fin.ext ?_)
    match a with
    | ⟨0, _⟩ => show win0_3.index t (0 : Fin 2) * 1 + 1 * 0 = 0; omega
    | ⟨1, _⟩ => show win0_3.index t (1 : Fin 2) * 2048 + 1 * q.val = q.val; omega

/-- An index of the output array is in point `t`'s block iff each coordinate is in the block's range on its axis. -/
theorem mem_blk (t : Fin cfg0.N) (i : S16384x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v6).slice (win0_4.rect t)).set ↔ _
  rw [View.set_slice_whole, Rect.mem_set_unit]
  exact Iff.rfl

/-- THE COVER: row `r` of the output is written by point `r / 256`. -/
theorem covered (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  obtain ⟨t, ht⟩ := index_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-- THE OUTPUT ARRAY after the run is `rows` of the four operand arrays as the pallas_call finds them. -/
theorem final (c : Dev nD) :
    (dats m 0 c).arrAt 4 cfg0.N
      = Cert.ScaledLinear.rows (V m c main_v0) (V m c main_v2) (V m c main_v4) (V m c main_v5) :=
  (dats m 0 c).arrAt_eq_of_cover 4 _ (fun t _ => flushed_eq m c t) covered

end Cert.KernelIdeal.Blocks

end
-- ==== Proof.Layout.lean ====
/-
  The layout operations around the pallas_call, read at an index.

  Before the call the program flattens the input `[4, 4096, 2048]` to `[16384, 2048]` rows (row `4096·β + σ` is position
  `(β, σ)`), transposes the weight `[out, in]` to `[in, out]`, and views scale and bias `[2048]` as `[1, 2048]` rows; after
  it, it views the `[16384, 2048]` result as `[4, 4096, 2048]`. Changes of float format are the identity on the extended
  reals. Composed with `rows`, these give `spec`:

      rows(…)[4096·β + σ, o] = ∑ k, x[β, σ, k] · (w[o, k] · s[o]) + b[o].
-/
import proofs.«113941_j55130200212236_1_alg».proof.Proof.Gen.KernelIdeal
import proofs.«113941_j55130200212236_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Layout

open Cert.KernelIdeal Cert.KernelIdeal.Gen Idealize.ShloMosaic Idealize.ShloMosaic.ValueIdx

/-- Row `4096·β + σ` of the flattened input is position `(β, σ)` of the input. -/
theorem flat_row (x : FVec Ideal S4x4096x2048 .f32) (β : Fin 4) (σ : Fin 4096) (k : Fin 2048) (r : Fin 16384)
    (hr : r.val = β.val * 4096 + σ.val) :
    shapeCast S16384x2048 x shapeCasts_S4x4096x2048_S16384x2048 (ix2 r k) = x (ix3 β σ k) :=
  shapeCast_apply x shapeCasts_S4x4096x2048_S16384x2048 (ix2 r k) (ix3 β σ k) (by
    rw [Shape.rowMajor_val_three, Shape.rowMajor_val_two]
    show (β.val * 4096 + σ.val) * 2048 + k.val = r.val * 2048 + k.val
    rw [hr])

/-- Position `(β, σ)` of the result is row `4096·β + σ` of the flat result. -/
theorem unflat_row (Y : FVec Ideal S16384x2048 .f32) (β : Fin 4) (σ : Fin 4096) (o : Fin 2048) (r : Fin 16384)
    (hr : r.val = β.val * 4096 + σ.val) :
    shapeCast S4x4096x2048 Y shapeCasts_S16384x2048_S4x4096x2048 (ix3 β σ o) = Y (ix2 r o) :=
  shapeCast_apply Y shapeCasts_S16384x2048_S4x4096x2048 (ix3 β σ o) (ix2 r o) (by
    rw [Shape.rowMajor_val_three, Shape.rowMajor_val_two]
    show r.val * 2048 + o.val = (β.val * 4096 + σ.val) * 2048 + o.val
    rw [hr])

/-- The transposed weight at `(k, o)` is the weight at `(o, k)`. -/
theorem transposed (w : FVec Ideal S2048x2048 .f32) (k o : Fin 2048) :
    transpose S2048x2048 [1, 0] w transposes_S2048x2048_S2048x2048_1_0 (ix2 k o) = w (ix2 o k) :=
  transpose_apply [1, 0] w transposes_S2048x2048_S2048x2048_1_0 (ix2 k o) (ix2 o k)
    (fun b => match b with | ⟨0, _⟩ => rfl | ⟨1, _⟩ => rfl)

/-- A `[2048]` vector viewed as a `[1, 2048]` row. -/
theorem as_row (s : FVec Ideal S2048 .f32) (o : Fin 2048) :
    shapeCast S1x2048 s shapeCasts_S2048_S1x2048 (ix2 0 o) = s (ix1 o) :=
  shapeCast_apply s shapeCasts_S2048_S1x2048 (ix2 0 o) (ix1 o) (by
    rw [Shape.rowMajor_val_one, Shape.rowMajor_val_two]
    show o.val = 0 * 2048 + o.val
    omega)

/-- THE LAYER THROUGH THE LAYOUT: `rows` of the flattened input, the transposed weight and the scale and bias rows,
    viewed back as `[4, 4096, 2048]`, is `spec` of the arguments. -/
theorem rows_is_spec (x : FVec Ideal S4x4096x2048 .f32) (w : FVec Ideal S2048x2048 .f32) (s b : FVec Ideal S2048 .f32) :
    shapeCast S4x4096x2048
        (Cert.ScaledLinear.rows (shapeCast S16384x2048 x shapeCasts_S4x4096x2048_S16384x2048)
          (truncf (F := Ideal) .bf16 (transpose S2048x2048 [1, 0] w transposes_S2048x2048_S2048x2048_1_0) bitsLt_bf16_f32)
          (truncf (F := Ideal) .bf16 (shapeCast S1x2048 s shapeCasts_S2048_S1x2048) bitsLt_bf16_f32)
          (shapeCast S1x2048 b shapeCasts_S2048_S1x2048))
        shapeCasts_S16384x2048_S4x4096x2048
      = Cert.ScaledLinear.spec x w s b := by
  funext i
  obtain ⟨β, σ, o, rfl⟩ : ∃ (β : Fin 4) (σ : Fin 4096) (o : Fin 2048), i = ix3 β σ o := ⟨i 0, i 1, i 2, eq_ix3 i⟩
  have hβ : β.val < 4 := β.isLt
  have hσ : σ.val < 4096 := σ.isLt
  have hr : β.val * 4096 + σ.val < 16384 := by omega
  rw [unflat_row _ β σ o ⟨β.val * 4096 + σ.val, hr⟩ rfl]
  show (∑ k : Fin 2048, shapeCast S16384x2048 x shapeCasts_S4x4096x2048_S16384x2048 (ix2 ⟨β.val * 4096 + σ.val, hr⟩ k)
        * (truncf (F := Ideal) .bf16 (transpose S2048x2048 [1, 0] w transposes_S2048x2048_S2048x2048_1_0) bitsLt_bf16_f32 (ix2 k o)
          * truncf (F := Ideal) .bf16 (shapeCast S1x2048 s shapeCasts_S2048_S1x2048) bitsLt_bf16_f32 (ix2 0 o)))
      + shapeCast S1x2048 b shapeCasts_S2048_S1x2048 (ix2 0 o)
    = (∑ k : Fin 2048, x (ix3 β σ k) * (w (ix2 o k) * s (ix1 o))) + b (ix1 o)
  rw [as_row b o, truncf_apply, as_row s o]
  refine congrArg₂ (· + ·) (Finset.sum_congr rfl fun k _ => ?_) rfl
  rw [flat_row x β σ k ⟨β.val * 4096 + σ.val, hr⟩ rfl, truncf_apply, transposed]

end Cert.KernelIdeal.Layout

end
-- ==== Proof.KernelValue.lean ====
/-
  The kernel program's result is the specification.

  The program's result is the pallas_call's output array viewed as `[4, 4096, 2048]`. The output array after the call
  is `rows` of the four operand arrays as the call finds them (the 64 row blocks cover it), and those are the host
  operations before the call applied to the arguments: the input flattened, the weight transposed, scale and bias as rows
  (format changes aside). Through that layout `rows` is `spec` of the arguments.
-/
import proofs.«113941_j55130200212236_1_alg».proof.Proof.Gen.KernelIdeal.Frame
import proofs.«113941_j55130200212236_1_alg».proof.Proof.Blocks
import proofs.«113941_j55130200212236_1_alg».proof.Proof.Layout
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The operand arrays as the pallas_call finds them -/

/-- The rows operand is the input flattened. -/
theorem entry_rows (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

/-- The weight operand is the weight transposed (and its format changed). -/
theorem entry_weight (c : Dev nD) : (V m c main_v2 : S2048x2048.Idx → EReal)
    = truncf (F := Ideal) .bf16 (transpose S2048x2048 [1, 0] (m ((c : Thread nD τ).loc main_arg1)) transposes_S2048x2048_S2048x2048_1_0)
        bitsLt_bf16_f32 := by
  show StableHlo.after hostOps0 (fun b => m (c, b)) (Proc.devRef .tc main_v2) = _
  after_results

/-- The scale operand is the scale as a row (and its format changed). -/
theorem entry_scale (c : Dev nD) : (V m c main_v4 : S1x2048.Idx → EReal)
    = truncf (F := Ideal) .bf16 (shapeCast S1x2048 (m ((c : Thread nD τ).loc main_arg2)) shapeCasts_S2048_S1x2048) bitsLt_bf16_f32 := by
  show StableHlo.after hostOps0 (fun b => m (c, b)) (Proc.devRef .tc main_v4) = _
  after_results
  rfl

/-- The bias operand is the bias as a row. -/
theorem entry_bias (c : Dev nD) : (V m c main_v5 : S1x2048.Idx → EReal)
    = shapeCast S1x2048 (m ((c : Thread nD τ).loc main_arg3)) shapeCasts_S2048_S1x2048 := by
  show StableHlo.after hostOps0 (fun b => m (c, b)) (Proc.devRef .tc main_v5) = _
  after_results
  rfl

/-! ## The result -/

/-- The program's result buffer, as the host line after the call leaves it, is `spec` of the arguments. -/
theorem result_eq (c : Dev nD) :
    Pipeline.afterTail₀ cfgs (dats m) 0 (V0 m) [hostOps1] c main_v7
      = Cert.ScaledLinear.spec (m ((c : Thread nD τ).loc main_arg0)) (m ((c : Thread nD τ).loc main_arg1))
          (m ((c : Thread nD τ).loc main_arg2)) (m ((c : Thread nD τ).loc main_arg3)) := by
  have hout : (Pipeline.withArrays spec0 c (V0 m c) (fun w => (dats m 0 c).arrAt w cfg0.N) (Proc.devRef .tc main_v6)
        : S16384x2048.Idx → EReal)
      = Cert.ScaledLinear.rows (V m c main_v0) (V m c main_v2) (V m c main_v4) (V m c main_v5) :=
    (Pipeline.withArrays_arr spec0 launch0.win.arr_inj c _ _ 4).trans (Blocks.final m c)
  unfold Pipeline.afterTail₀
  show StableHlo.after hostOps1 _ (Proc.devRef .tc main_v7) = _
  after_results
  show shapeCast S4x4096x2048 (Pipeline.withArrays spec0 c (V0 m c) (fun w => (dats m 0 c).arrAt w cfg0.N) (Proc.devRef .tc main_v6)
      : S16384x2048.Idx → EReal) shapeCasts_S16384x2048_S4x4096x2048 = _
  rw [hout, entry_rows, entry_weight, entry_scale, entry_bias]
  exact Layout.rows_is_spec _ _ _ _

/-- THE KERNEL PROGRAM'S RUN: every weakly fair execution terminates with the result at `spec` of the arguments and the
    arguments unchanged. -/
theorem run : θ_run defs (onTc (τ := τ) (main (F := Ideal))) ⟨m, fun _ => 0, ρ⟩ fun r => ∀ c : Dev nD,
      r.2.mem ((c.tc : Thread nD τ).loc main_v7)
        = Cert.ScaledLinear.spec (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference's result is the specification.

  The reference scales row `o` of the weight by `s[o]` (the scale broadcast along the input axis), contracts the
  input's last axis against the scaled weight's second axis, and adds the bias broadcast over batch and position.
  Read at an index `(β, σ, o)`, operation by operation, that is `∑ i, x[β, σ, i] · (w[o, i] · s[o]) + b[o]`.
-/
import proofs.«113941_j55130200212236_1_alg».proof.Proof.Gen.ReferenceIdeal.Read
import proofs.«113941_j55130200212236_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The last stage of the reference, as a function of its four arguments, is `spec` of them. -/
theorem result_is_spec (x0 : (⟨S4x4096x2048, .f32⟩ : BufTy).Contents (Elt Ideal)) (x1 : (⟨S2048x2048, .f32⟩ : BufTy).Contents (Elt Ideal))
    (x2 x3 : (⟨S2048, .f32⟩ : BufTy).Contents (Elt Ideal)) :
    val_main_v6 (F := Ideal) x0 x1 x2 x3 = Cert.ScaledLinear.spec x0 x1 x2 x3 := by
  funext i
  rw [val_main_v6_apply, val_main_v3_apply, val_main_v5_apply, val_main_v4_apply]
  unfold Cert.ScaledLinear.spec
  -- the bias: broadcast to `[1, 1, 2048]` and then over batch and position, it is read at the output feature
  have eb : idx_main_v4 (idx_main_v5 i) = ix1 (i 2) := funext fun a => Fin.ext (by match a with | ⟨0, _⟩ => rfl)
  rw [eb, Ideal.addf_def]
  refine congrArg₂ (· + ·) ?_ rfl
  refine Finset.sum_congr rfl fun k _ => ?_
  rw [val_main_v2_apply, val_main_v1_apply, val_main_v0_apply, Ideal.mulf_def]
  -- the contraction: the input at `(β, σ, k)`, the weight at `(o, k)`, the scale at `o`
  have el : lidx_main_v3 i k = ix3 (i 0) (i 1) k :=
    funext fun a => Fin.ext (by match a with | ⟨0, _⟩ => rfl | ⟨1, _⟩ => rfl | ⟨2, _⟩ => rfl)
  have er : ridx_main_v3 i k = ix2 (i 2) k :=
    funext fun a => Fin.ext (by match a with | ⟨0, _⟩ => rfl | ⟨1, _⟩ => rfl)
  have es : idx_main_v0 (idx_main_v1 (ridx_main_v3 i k)) = ix1 (i 2) :=
    funext fun a => Fin.ext (by match a with | ⟨0, _⟩ => rfl)
  rw [es, el, er]
  rfl

end Cert.ReferenceIdeal.RefValue

end
-- ==== Proof.lean ====
/-
  A dense layer with per-output-feature weight scaling, as a tiled kernel and as a plain contraction: equal on the
  extended reals.

  Both programs compute, for an input `x : [4, 4096, 2048]`, a weight `w : [2048 (out), 2048 (in)]`, a scale `s : [2048]`
  and a bias `b : [2048]`,

      out[β, σ, o] = ∑ i, x[β, σ, i] · (w[o, i] · s[o]) + b[o].

  The reference scales the weight's rows, contracts the input's last axis against the scaled weight's second axis, and
  adds the bias. The kernel program flattens the input to 16384 rows, transposes the weight, and runs 64 grid points;
  point `t` multiplies rows `256·t … 256·t + 255` by the transposed weight with column `o` scaled by `s[o]`, into a zero
  accumulator, and adds the bias row; the row blocks cover the output, which is then viewed as `[4, 4096, 2048]`. On the
  extended reals a change of float format is the identity and a matrix product into a zero accumulator is the plain sum
  of products, so the two results are the same sum, term by term — the same product `w · s` inside, the same bias outside;
  no law beyond re-indexing the sum is used, and finiteness of the inputs is not needed.

  The three frames are the generated ones (the reference's is its run with the result dropped); the idealization rewrote
  nothing, so `preserves` is trivial.
-/
import proofs.«113941_j55130200212236_1_alg».proof.Defs
import proofs.«113941_j55130200212236_1_alg».proof.Proof.Gen.Kernel
import proofs.«113941_j55130200212236_1_alg».proof.Proof.Gen.Kernel.Frame
import proofs.«113941_j55130200212236_1_alg».proof.Proof.Gen.KernelIdeal
import proofs.«113941_j55130200212236_1_alg».proof.Proof.Gen.KernelIdeal.Frame
import proofs.«113941_j55130200212236_1_alg».proof.Proof.Gen.ReferenceIdeal
import proofs.«113941_j55130200212236_1_alg».proof.Proof.Gen.ReferenceIdeal.Run
import proofs.«113941_j55130200212236_1_alg».proof.Proof.Gen.ReferenceIdeal.Read
import proofs.«113941_j55130200212236_1_alg».proof.Proof.Gen.Pre_finite_inputs
import proofs.«113941_j55130200212236_1_alg».proof.Proof.KernelValue
import proofs.«113941_j55130200212236_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `spec` of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.result_is_spec _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
